-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S256x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S2x1600000 32) (main_arg2 : FVec F S1600000 .f32) (main_arg3 : IVec S2x200000 32) (main_arg4 : FVec F S64x64 .f32) (main_arg5 : FVec F S64 .f32) (main_arg6 : FVec F S64x64 .f32) (main_arg7 : FVec F S64 .f32) (main_arg8 : FVec F S256x64 .f32) (main_arg9 : FVec F S64 .f32) (main_arg10 : FVec F S64x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S5000x64 : Shape := ⟨2, ![5000, 64]⟩
abbrev S1x64 : Shape := ⟨2, ![1, 64]⟩
abbrev S5000x1 : Shape := ⟨2, ![5000, 1]⟩
abbrev S5000x256 : Shape := ⟨2, ![5000, 256]⟩
abbrev S1x1 : Shape := ⟨2, ![1, 1]⟩

abbrev nBuf : Space → Nat
  | .hbm => 53
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S2x200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S1x200000, .i32⟩
  | .hbm, ⟨31, _⟩ => ⟨S200000, .i32⟩
  | .hbm, ⟨32, _⟩ => ⟨S_, .i32⟩
  | .hbm, ⟨33, _⟩ => ⟨S200000, .i32⟩
  | .hbm, ⟨34, _⟩ => ⟨S200000, .i1⟩
  | .hbm, ⟨35, _⟩ => ⟨S_, .i32⟩
  | .hbm, ⟨36, _⟩ => ⟨S200000, .i32⟩
  | .hbm, ⟨37, _⟩ => ⟨S200000, .i32⟩
  | .hbm, ⟨38, _⟩ => ⟨S200000, .i32⟩
  | .hbm, ⟨39, _⟩ => ⟨S200000x1, .i32⟩
  | .hbm, ⟨40, _⟩ => ⟨S200000x64, .f32⟩
  | .hbm, ⟨41, _⟩ => ⟨S1x200000, .i32⟩
  | .hbm, ⟨42, _⟩ => ⟨S200000, .i32⟩
  | .hbm, ⟨43, _⟩ => ⟨S_, .i32⟩
  | .hbm, ⟨44, _⟩ => ⟨S200000, .i32⟩
  | .hbm, ⟨45, _⟩ => ⟨S200000, .i1⟩
  | .hbm, ⟨46, _⟩ => ⟨S_, .i32⟩
  | .hbm, ⟨47, _⟩ => ⟨S200000, .i32⟩
  | .hbm, ⟨48, _⟩ => ⟨S200000, .i32⟩
  | .hbm, ⟨49, _⟩ => ⟨S200000, .i32⟩
  | .hbm, ⟨50, _⟩ => ⟨S200000x1, .i32⟩
  | .hbm, ⟨51, _⟩ => ⟨S200000x64, .f32⟩
  | .hbm, ⟨52, _⟩ => ⟨S200000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S256x64, .f32⟩
  | .local _ .vmem, ⟨15, _⟩ => ⟨S64, .f32⟩
  | .local _ .vmem, ⟨16, _⟩ => ⟨S64x1, .f32⟩
  | .local _ .vmem, ⟨17, _⟩ => ⟨S1, .f32⟩
  | .local _ .vmem, ⟨18, _⟩ => ⟨S5000x1, .f32⟩
  | .local _ .vmem, ⟨19, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c : Ref sig .tc := ⟨.hbm, 16, rfl⟩
abbrev main_call0_v4 : Ref sig .tc := ⟨.hbm, 17, rfl⟩
abbrev main_call0_v5 : Ref sig .tc := ⟨.hbm, 18, rfl⟩
abbrev main_call0_c_0 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_cst : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_c_1 : Ref sig .tc := ⟨.hbm, 32, rfl⟩
abbrev main_call0_v17 : Ref sig .tc := ⟨.hbm, 33, rfl⟩
abbrev main_call0_v18 : Ref sig .tc := ⟨.hbm, 34, rfl⟩
abbrev main_call0_c_2 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_c_3 : Ref sig .tc := ⟨.hbm, 43, rfl⟩
abbrev main_call0_v26 : Ref sig .tc := ⟨.hbm, 44, rfl⟩
abbrev main_call0_v27 : Ref sig .tc := ⟨.hbm, 45, rfl⟩
abbrev main_call0_c_4 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  concatenates_S5000x64_S5000x64_S5000x64_S5000x64_S5000x256_d1 : Shape.Concatenates [S5000x64, S5000x64, S5000x64, S5000x64] S5000x256 1
  inb_S256x64_S256x64_0_0 : ∀ a, (![0, 0] : Fin 2 → Nat) a + S256x64.size a ≤ S256x64.size a
  h_S256x64 : 0 < S256x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S200000x1_S200000x64_1_0_n_n_0_1_164_wf : GatherDims.WF S100000x64 S200000x1 S200000x64 [1] [0] [] [0] [] 1 ![1, 64]
  dot_S5000x64_S64x64_S5000x64_1_0_0_1_n_n_wf : DotDims.WF S5000x64 S64x64 S5000x64 [1] [0] [0] [1] [] []
  dot_S5000x256_S256x64_S5000x64_1_0_0_1_n_n_wf : DotDims.WF S5000x256 S256x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S64x1.size a
  hwx1_4 : ∀ i : grid1.Coords, EltTy.bits .f32 = 32 ∨ (Rect.block (s := S64x1) S64x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1.size a ≤ S1.size a
  hwx1_5 : ∀ i : grid1.Coords, EltTy.bits .f32 = 32 ∨ (Rect.block (s := S1) S1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S200000x1.size a
  hwx1_6 : ∀ i : grid1.Coords, EltTy.bits .f32 = 32 ∨ (Rect.block (s := S200000x1) S5000x1.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v0) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S2x200000 : Shape := ⟨2, ![2, 200000]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S1 : Shape := ⟨1, ![1]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S200000x256 : Shape := ⟨2, ![200000, 256]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S2x200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S1600000, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x200000, .i32⟩
  | .hbm, ⟨50, _⟩ => ⟨S200000, .i32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x64, .f32⟩
  | .hbm, ⟨60, _⟩ => ⟨S1x200000, .i32⟩
  | .hbm, ⟨61, _⟩ => ⟨S200000, .i32⟩
  | .hbm, ⟨62, _⟩ => ⟨S_, .i32⟩
  | .hbm, ⟨63, _⟩ => ⟨S200000, .i32⟩
  | .hbm, ⟨64, _⟩ => ⟨S200000, .i1⟩
  | .hbm, ⟨65, _⟩ => ⟨S_, .i32⟩
  | .hbm, ⟨66, _⟩ => ⟨S200000, .i32⟩
  | .hbm, ⟨67, _⟩ => ⟨S200000, .i32⟩
  | .hbm, ⟨68, _⟩ => ⟨S200000, .i32⟩
  | .hbm, ⟨69, _⟩ => ⟨S200000x1, .i32⟩
  | .hbm, ⟨70, _⟩ => ⟨S200000x64, .f32⟩
  | .hbm, ⟨71, _⟩ => ⟨S200000x64, .f32⟩
  | .hbm, ⟨72, _⟩ => ⟨S200000x64, .f32⟩
  | .hbm, ⟨73, _⟩ => ⟨S200000x256, .f32⟩
  | .hbm, ⟨74, _⟩ => ⟨S200000x64, .f32⟩
  | .hbm, ⟨75, _⟩ => ⟨S1x64, .f32⟩
  | .hbm, ⟨76, _⟩ => ⟨S200000x64, .f32⟩
  | .hbm, ⟨77, _⟩ => ⟨S200000x64, .f32⟩
  | .hbm, ⟨78, _⟩ => ⟨S_, .f32⟩
  | .hbm, ⟨79, _⟩ => ⟨S200000x64, .f32⟩
  | .hbm, ⟨80, _⟩ => ⟨S200000x64, .f32⟩
  | .hbm, ⟨81, _⟩ => ⟨S200000x1, .f32⟩
  | .hbm, ⟨82, _⟩ => ⟨S1x1, .f32⟩
  | .hbm, ⟨83, _⟩ => ⟨S200000x1, .f32⟩
  | .hbm, ⟨84, _⟩ => ⟨S200000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x64_S200000x64_S200000x64_S200000x64_S200000x256_d1 : Shape.Concatenates [S200000x64, S200000x64, S200000x64, S200000x64] S200000x256 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  gather_S100000x64_S200000x1_S200000x64_1_0_n_n_0_1_164_wf : GatherDims.WF S100000x64 S200000x1 S200000x64 [1] [0] [] [0] [] 1 ![1, 64]
  dot_S200000x256_S256x64_S200000x64_1_0_0_1_n_n_wf : DotDims.WF S200000x256 S256x64 S200000x64 [1] [0] [0] [1] [] []
  dot_S200000x64_S64x1_S200000x1_1_0_0_1_n_n_wf : DotDims.WF S200000x64 S64x1 S200000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def dot_S200000x256_S256x64_S200000x64_1_0_0_1_n_n : DotDims S200000x256 S256x64 S200000x64 where
  lhsContracting := [1]
  rhsContracting := [0]
  lhsNonContracting := [0]
  rhsNonContracting := [1]
  lhsBatch := []
  rhsBatch := []
  wf := dot_S200000x256_S256x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Rows.lean ====
/-
  The two row-wise networks of this kernel, as functions of ONE row.

  Both pallas_calls, and the reference's dense stretches, act on every row of their input independently:

    encoder   h(r, ·)  = relu( relu( a(r, ·) · W1 + b1 ) · W2 + b2 )              a = the combined node features, 64 wide
    decoder   out(p)   = relu( [e1+e2, e1*e2, e1, e2](p, ·) · D1 + d1 ) · D2 + d2   the four pieces laid side by side, 256 wide

  Here one dense layer on a row a is  lin a W b j = (sum over q of a q * W (q, j)) + b j  and relu v = max v 0, all on the
  extended reals. This module states these row functions and reads the kernel's and the host's spelling of one dense
  layer and of relu at an entry (p, j), for any number of rows: every spelling is the same row function of row p of its
  inputs. No law of the extended reals is needed for that: the matrix product is read as a sum over its contraction
  coordinate, a change of float format is the identity, and a bias row is read at its column.
-/
import Idealize.ShloMosaic.PureOps.Ideal.Laws
import Idealize.ShloMosaic.Lib.ValueIdx
import Idealize.ShloMosaic.Lib.ValueLayout
import Idealize.ShloMosaic.Lib.Pipeline.Value
import proofs.«141117_j17360257810534_1_alg».proof.Proof.LibDotPlain

noncomputable section

open scoped BigOperators

namespace Cert.Rows

open Idealize.ShloMosaic Idealize.ShloMosaic.ValueIdx

/-! ## The row functions -/

/-- One dense layer on a row: the row times the weight matrix, plus the bias, at column j. -/
def lin {K N : Nat} (a : Fin K → EReal) (W : FVec Ideal ⟨2, ![K, N]⟩ .f32) (b : FVec Ideal ⟨1, ![N]⟩ .f32) (j : Fin N) : EReal :=
  (∑ q : Fin K, a q * W (ix2 q j)) + b (ix1 j)

/-- The rectifier on the extended reals. -/
def relu (v : EReal) : EReal := max v 0

/-- The encoder on one row: two dense layers, each followed by the rectifier. -/
def encRow (a : Fin 64 → EReal) (w1 : FVec Ideal ⟨2, ![64, 64]⟩ .f32) (b1 : FVec Ideal ⟨1, ![64]⟩ .f32)
    (w2 : FVec Ideal ⟨2, ![64, 64]⟩ .f32) (b2 : FVec Ideal ⟨1, ![64]⟩ .f32) (j : Fin 64) : EReal :=
  relu (lin (fun k => relu (lin a w1 b1 k)) w2 b2 j)

/-- Four rows of 64 laid side by side: column q of the 256 is column q mod 64 of piece q / 64. -/
def cat4 (a b c d : Fin 64 → EReal) (q : Fin 256) : EReal :=
  if h0 : q.val < 64 then a ⟨q.val, h0⟩
  else if h1 : q.val < 128 then b ⟨q.val - 64, by omega⟩
  else if h2 : q.val < 192 then c ⟨q.val - 128, by omega⟩
  else d ⟨q.val - 192, by omega⟩

/-- The decoder on one pair of rows: the joined features through a rectified dense layer, then a dense layer with one
    output column. -/
def decRow (e1 e2 : Fin 64 → EReal) (dw1 : FVec Ideal ⟨2, ![256, 64]⟩ .f32) (db1 : FVec Ideal ⟨1, ![64]⟩ .f32)
    (dw2 : FVec Ideal ⟨2, ![64, 1]⟩ .f32) (db2 : FVec Ideal ⟨1, ![1]⟩ .f32) (j : Fin 1) : EReal :=
  lin (fun k => relu (lin (cat4 (fun q => e1 q + e2 q) (fun q => e1 q * e2 q) e1 e2) dw1 db1 k)) dw2 db2 j

/-! ## The zero word -/

theorem scalar_zero : (Scalar.ofBits (F := Ideal) .f32 0x00000000#32 : EReal) = 0 := Ideal.ofBits_zero_f32

/-! ## The kernel's spelling of a dense layer and of the rectifier -/

/-- The kernel's dense layer — both factors narrowed to bf16 (the identity on ideal values), multiplied into the
    all-zero accumulator, the bias row cast to one row and repeated down the rows — at entry (p, j) is the dense layer
    of row p. -/
theorem linK_apply (R K N : Nat) (prec : Option ContractPrecision)
    (a : FVec Ideal ⟨2, ![R, K]⟩ .f32) (w : FVec Ideal ⟨2, ![K, N]⟩ .f32) (b : FVec Ideal ⟨1, ![N]⟩ .f32)
    (h1 : FTy.bf16.bits < FTy.f32.bits) (h2 : FTy.bf16.bits < FTy.f32.bits)
    (h3 : (⟨1, ![N]⟩ : Shape).ShapeCasts ⟨2, ![1, N]⟩) (h4 : (⟨2, ![1, N]⟩ : Shape).Broadcasts ⟨2, ![R, N]⟩)
    (p : Fin R) (j : Fin N) :
    addf (matmul (DotDims.plain R K N) prec (truncf .bf16 a h1) (truncf .bf16 w h2) (constant ⟨2, ![R, N]⟩ .f32 0x00000000#32))
        (broadcastTo ⟨2, ![R, N]⟩ (shapeCast ⟨2, ![1, N]⟩ b h3) h4) (ix2 p j)
      = lin (fun q => a (ix2 p q)) w b j := by
  rw [addf_apply]
  simp only [matmul]
  rw [Cert.LibDotPlain.matmul_zero_plain, broadcastTo_1b_ab_apply, shapeCast_a_1a_apply]
  rfl

/-- The kernel's rectifier — the maximum with the zero word repeated over the array — at an entry. -/
theorem reluK_apply {s : Shape} (x : FVec Ideal s .f32) (i : s.Idx) :
    maximumf x (broadcast s (Scalar.ofBits (F := Ideal) .f32 0x00000000#32)) i = relu (x i) := by
  rw [maximumf_apply, broadcast_apply, scalar_zero]; rfl

/-! ## The host's spelling of a dense layer and of the rectifier -/

/-- The host's dense layer — the plain product, the bias made one row and then repeated down the rows by two
    broadcasts — at entry (p, j) is the dense layer of row p. -/
theorem linH_apply (R K N : Nat) (prec : Option ContractPrecision)
    (a : FVec Ideal ⟨2, ![R, K]⟩ .f32) (w : FVec Ideal ⟨2, ![K, N]⟩ .f32) (b : FVec Ideal ⟨1, ![N]⟩ .f32)
    (d1 : Fin 1 → Fin 2) (hd1 : d1 0 = 1) (g1 : (⟨1, ![N]⟩ : Shape).BroadcastsInDim ⟨2, ![1, N]⟩ d1)
    (d2 : Fin 2 → Fin 2) (hd21 : d2 1 = 1) (g2 : (⟨2, ![1, N]⟩ : Shape).BroadcastsInDim ⟨2, ![R, N]⟩ d2)
    (p : Fin R) (j : Fin N) :
    addf (Host.dotGeneral (DotDims.plain R K N) prec a w)
        (broadcastInDim ⟨2, ![R, N]⟩ d2 g2 (broadcastInDim ⟨2, ![1, N]⟩ d1 g1 b)) (ix2 p j)
      = lin (fun q => a (ix2 p q)) w b j := by
  rw [addf_apply]
  simp only [Host.dotGeneral]
  rw [Cert.LibDotPlain.dotGeneral_plain]
  have e2 : broadcastInDim ⟨2, ![R, N]⟩ d2 g2 (broadcastInDim ⟨2, ![1, N]⟩ d1 g1 b) (ix2 p j)
      = broadcastInDim ⟨2, ![1, N]⟩ d1 g1 b (ix2 (0 : Fin 1) j) :=
    broadcastInDim_apply d2 g2 _ (ix2 p j) (ix2 (0 : Fin 1) j) (fun ax => match ax with
      | ⟨0, _⟩ => by show (0 : Nat) = if (1 : Nat) = 1 then 0 else _; rw [if_pos rfl]
      | ⟨1, _⟩ => by
          show j.val = if N = 1 then 0 else ((ix2 p j) (d2 1)).val
          rw [hd21]
          split
          · have := j.isLt; omega
          · rfl)
  have e1 : broadcastInDim ⟨2, ![1, N]⟩ d1 g1 b (ix2 (0 : Fin 1) j) = b (ix1 j) :=
    broadcastInDim_apply d1 g1 b (ix2 (0 : Fin 1) j) (ix1 j) (fun ax => match ax with
      | ⟨0, _⟩ => by
          show j.val = if N = 1 then 0 else ((ix2 (0 : Fin 1) j) (d1 0)).val
          rw [hd1]
          split
          · have := j.isLt; omega
          · rfl)
  rw [e2, e1]
  rfl

/-- The host's rectifier — the maximum with the zero constant repeated over the array — at an entry. -/
theorem reluH_apply {s : Shape} (x : FVec Ideal s .f32) (g : (⟨0, ![]⟩ : Shape).BroadcastsInDim s ![]) (i : s.Idx) :
    maximumf x (broadcastInDim s ![] g (constant (F := Ideal) ⟨0, ![]⟩ .f32 0x00000000#32)) i = relu (x i) := by
  rw [maximumf_apply]
  have : broadcastInDim s ![] g (constant (F := Ideal) ⟨0, ![]⟩ .f32 0x00000000#32) i = 0 := by
    unfold broadcastInDim
    exact Ideal.ofBits_zero_f32
  rw [this]; rfl

/-! ## Four pieces laid side by side, read at an entry -/

/-- Four R x 64 arrays joined along the columns, read at (p, q): row p of the four pieces laid side by side, at
    column q. The column falls in piece q / 64, past the 64 (q / 64) columns of the pieces before it. -/
theorem cat4_apply (R : Nat) (a b c d : FVec Ideal ⟨2, ![R, 64]⟩ .f32)
    (h : Shape.Concatenates [(⟨2, ![R, 64]⟩ : Shape), ⟨2, ![R, 64]⟩, ⟨2, ![R, 64]⟩, ⟨2, ![R, 64]⟩] ⟨2, ![R, 256]⟩ 1)
    (p : Fin R) (q : Fin 256) :
    concatenate ⟨2, ![R, 256]⟩ 1 [⟨⟨2, ![R, 64]⟩, a⟩, ⟨⟨2, ![R, 64]⟩, b⟩, ⟨⟨2, ![R, 64]⟩, c⟩, ⟨⟨2, ![R, 64]⟩, d⟩] h (ix2 p q)
      = cat4 (fun k => a (ix2 p k)) (fun k => b (ix2 p k)) (fun k => c (ix2 p k)) (fun k => d (ix2 p k)) q := by
  have hoff : ∀ (k : Fin 64) (bb : Fin (⟨2, ![R, 64]⟩ : Shape).rank), bb.cast (rfl : (2 : Nat) = 2) ≠ (1 : Fin 2) →
      ((ix2 p k) bb).val = ((ix2 p q) (bb.cast rfl)).val := fun k bb hb => by
    match bb with
    | ⟨0, _⟩ => rfl
    | ⟨1, _⟩ => exact absurd rfl hb
  let xs : List ((s : Shape) × (s.Idx → EReal)) :=
    [⟨⟨2, ![R, 64]⟩, a⟩, ⟨⟨2, ![R, 64]⟩, b⟩, ⟨⟨2, ![R, 64]⟩, c⟩, ⟨⟨2, ![R, 64]⟩, d⟩]
  unfold cat4
  split
  · rename_i h0
    exact concatenate_apply_piece (t := ⟨2, ![R, 256]⟩) 1 xs h (ix2 p q) 0 (by show (0 : Nat) < 4; omega) ⟨2, ![R, 64]⟩ a rfl rfl 0 rfl (ix2 p ⟨q.val, h0⟩)
      (hoff _) (by show 0 + q.val = q.val; omega)
  · split
    · rename_i h0 h1
      exact concatenate_apply_piece (t := ⟨2, ![R, 256]⟩) 1 xs h (ix2 p q) 1 (by show (1 : Nat) < 4; omega) ⟨2, ![R, 64]⟩ b rfl rfl 64 rfl (ix2 p ⟨q.val - 64, by omega⟩)
        (hoff _) (by show 64 + (q.val - 64) = q.val; omega)
    · split
      · rename_i h0 h1 h2
        exact concatenate_apply_piece (t := ⟨2, ![R, 256]⟩) 1 xs h (ix2 p q) 2 (by show (2 : Nat) < 4; omega) ⟨2, ![R, 64]⟩ c rfl rfl 128 rfl (ix2 p ⟨q.val - 128, by omega⟩)
          (hoff _) (by show 128 + (q.val - 128) = q.val; omega)
      · rename_i h0 h1 h2
        have := q.isLt
        exact concatenate_apply_piece (t := ⟨2, ![R, 256]⟩) 1 xs h (ix2 p q) 3 (by show (3 : Nat) < 4; omega) ⟨2, ![R, 64]⟩ d rfl rfl 192 rfl (ix2 p ⟨q.val - 192, by omega⟩)
          (hoff _) (by show 192 + (q.val - 192) = q.val; omega)

/-! ## The row functions applied to every row of an array -/

/-- The kernel's combined node features: twice the features plus the neighbour sum. -/
def combK {s : Shape} (x sg : FVec Ideal s .f32) : FVec Ideal s .f32 := fun i => 2 * x i + sg i

/-- The reference's combined node features: the features once, plus the neighbour sum with the features added. -/
def combH {s : Shape} (x sg : FVec Ideal s .f32) : FVec Ideal s .f32 := fun i => 1 * x i + (sg i + x i)

/-- Twice a value is the value added to itself, also at the two infinities. -/
theorem two_mul_ereal (v : EReal) : 2 * v = v + v := by
  induction v using EReal.rec with
  | bot => rw [EReal.mul_bot_of_pos (by norm_num)]; rfl
  | coe r =>
    have h2 : (2 : EReal) = ((2 : ℝ) : EReal) := by norm_cast
    rw [h2, ← EReal.coe_mul, ← EReal.coe_add, two_mul]
  | top => rw [EReal.mul_top_of_pos (by norm_num)]; rfl

/-- The two spellings of the combined features agree: only commutativity and associativity of the sum, and twice a value
    being the value added to itself, are used, and these hold on all of the extended reals. -/
theorem combK_eq_combH {s : Shape} (x sg : FVec Ideal s .f32) : combK x sg = combH x sg := by
  funext i
  show 2 * x i + sg i = 1 * x i + (sg i + x i)
  rw [two_mul_ereal, one_mul, add_assoc, add_comm (x i) (sg i)]

/-- The encoder applied to every row of an R x 64 array. -/
def encArr (R : Nat) (a : FVec Ideal ⟨2, ![R, 64]⟩ .f32) (w1 : FVec Ideal ⟨2, ![64, 64]⟩ .f32) (b1 : FVec Ideal ⟨1, ![64]⟩ .f32)
    (w2 : FVec Ideal ⟨2, ![64, 64]⟩ .f32) (b2 : FVec Ideal ⟨1, ![64]⟩ .f32) : FVec Ideal ⟨2, ![R, 64]⟩ .f32 :=
  fun i => encRow (fun q => a (ix2 (⟨(i 0).val, (i 0).isLt⟩ : Fin R) q)) w1 b1 w2 b2 ⟨(i 1).val, (i 1).isLt⟩

theorem encArr_apply (R : Nat) (a : FVec Ideal ⟨2, ![R, 64]⟩ .f32) (w1 : FVec Ideal ⟨2, ![64, 64]⟩ .f32) (b1 : FVec Ideal ⟨1, ![64]⟩ .f32)
    (w2 : FVec Ideal ⟨2, ![64, 64]⟩ .f32) (b2 : FVec Ideal ⟨1, ![64]⟩ .f32) (p : Fin R) (j : Fin 64) :
    encArr R a w1 b1 w2 b2 (ix2 p j) = encRow (fun q => a (ix2 p q)) w1 b1 w2 b2 j := rfl

/-- The decoder applied to every pair of rows of two R x 64 arrays: an R x 1 array. -/
def decArr (R : Nat) (e1 e2 : FVec Ideal ⟨2, ![R, 64]⟩ .f32) (dw1 : FVec Ideal ⟨2, ![256, 64]⟩ .f32) (db1 : FVec Ideal ⟨1, ![64]⟩ .f32)
    (dw2 : FVec Ideal ⟨2, ![64, 1]⟩ .f32) (db2 : FVec Ideal ⟨1, ![1]⟩ .f32) : FVec Ideal ⟨2, ![R, 1]⟩ .f32 :=
  fun i => decRow (fun q => e1 (ix2 (⟨(i 0).val, (i 0).isLt⟩ : Fin R) q)) (fun q => e2 (ix2 (⟨(i 0).val, (i 0).isLt⟩ : Fin R) q))
    dw1 db1 dw2 db2 ⟨(i 1).val, (i 1).isLt⟩

theorem decArr_apply (R : Nat) (e1 e2 : FVec Ideal ⟨2, ![R, 64]⟩ .f32) (dw1 : FVec Ideal ⟨2, ![256, 64]⟩ .f32) (db1 : FVec Ideal ⟨1, ![64]⟩ .f32)
    (dw2 : FVec Ideal ⟨2, ![64, 1]⟩ .f32) (db2 : FVec Ideal ⟨1, ![1]⟩ .f32) (p : Fin R) (j : Fin 1) :
    decArr R e1 e2 dw1 db1 dw2 db2 (ix2 p j) = decRow (fun q => e1 (ix2 p q)) (fun q => e2 (ix2 p q)) dw1 db1 dw2 db2 j := rfl

end Cert.Rows
-- ==== Proof.Blocks.lean ====
/-
  The two kernel bodies, one entry at a time.

  What the encoder body stores at row p, column j of its output block is the encoder row function of row p of the
  combined features 2 * x + seg, read from the body's two loaded feature blocks; what the decoder body stores at row p
  of its one-column output block is the decoder row function of row p of its two loaded embedding blocks. Both are read
  off the bodies' arithmetic (the generated payload terms) operation by operation: each dense layer, each rectifier and
  the side-by-side join is the row function's, the kernel's literal 2.0 is the real number two, and a cast of an array
  to its own shape changes nothing.
-/
import proofs.«141117_j17360257810534_1_alg».proof.Proof.Gen.KernelIdeal.Skeleton
import proofs.«141117_j17360257810534_1_alg».proof.Proof.Rows

noncomputable section

open scoped BigOperators

namespace Cert.KernelIdeal.Blocks

open Idealize.ShloMosaic Idealize.ShloMosaic.ValueIdx Cert.KernelIdeal Cert.KernelIdeal.Gen Cert.Rows

/-- The literal 2.0 denotes the real number two. -/
theorem two : (Scalar.ofBits (F := Ideal) .f32 0x40000000#32 : EReal) = 2 := by
  show Ideal.ofBits .f32 0x40000000#32 = 2
  simp [Ideal.ofBits, Ideal.ieee, -EReal.coe_mul]; norm_num
  norm_cast

/-- The kernel's three contraction records are the plain products of their sizes. -/
theorem dotE_plain : dot_S5000x64_S64x64_S5000x64_1_0_0_1_n_n = DotDims.plain 5000 64 64 := rfl
theorem dotD1_plain : dot_S5000x256_S256x64_S5000x64_1_0_0_1_n_n = DotDims.plain 5000 256 64 := rfl
theorem dotD2_plain : dot_S5000x64_S64x1_S5000x1_1_0_0_1_n_n = DotDims.plain 5000 64 1 := rfl

/-- The encoder body's stored value at (p, j): the encoder row function of row p of 2 * x + seg. -/
theorem enc_pay (x s : Vec Ideal S5000x64 .f32) (w1 : Vec Ideal S64x64 .f32) (b1 : Vec Ideal S64 .f32)
    (w2 : Vec Ideal S64x64 .f32) (b2 : Vec Ideal S64 .f32) (p : Fin 5000) (j : Fin 64) :
    k0_pay1 (F := Ideal) x s w1 b1 w2 b2 (ix2 p j)
      = encRow (fun q => 2 * x (ix2 p q) + s (ix2 p q)) w1 b1 w2 b2 j := by
  unfold k0_pay1
  rw [dotE_plain]
  refine (reluK_apply _ _).trans ?_
  unfold encRow
  refine congrArg relu ?_
  refine (linK_apply 5000 64 64 none _ w2 b2 _ _ _ _ p j).trans ?_
  refine congrArg (fun a => lin a w2 b2 j) (funext fun k => ?_)
  refine (reluK_apply _ _).trans ?_
  refine congrArg relu ?_
  refine (linK_apply 5000 64 64 none _ w1 b1 _ _ _ _ p k).trans ?_
  refine congrArg (fun a => lin a w1 b1 k) (funext fun q => ?_)
  rw [addf_apply, mulf_apply, broadcast_apply, two, shapeCast_self]

/-- The decoder body's stored value at (p, j), j the one column: the decoder row function of row p of e1 and e2. -/
theorem dec_pay (e1 e2 : Vec Ideal S5000x64 .f32) (dw1 : Vec Ideal S256x64 .f32) (db1 : Vec Ideal S64 .f32)
    (dw2 : Vec Ideal S64x1 .f32) (db2 : Vec Ideal S1 .f32) (p : Fin 5000) (j : Fin 1) :
    k1_pay1 (F := Ideal) e1 e2 dw1 db1 dw2 db2 (ix2 p j)
      = decRow (fun q => e1 (ix2 p q)) (fun q => e2 (ix2 p q)) dw1 db1 dw2 db2 j := by
  unfold k1_pay1
  rw [dotD1_plain, dotD2_plain]
  unfold decRow
  refine (linK_apply 5000 64 1 none _ dw2 db2 _ _ _ _ p j).trans ?_
  refine congrArg (fun a => lin a dw2 db2 j) (funext fun k => ?_)
  refine (reluK_apply _ _).trans ?_
  refine congrArg relu ?_
  refine (linK_apply 5000 256 64 none _ dw1 db1 _ _ _ _ p k).trans ?_
  refine congrArg (fun a => lin a dw1 db1 k) (funext fun q => ?_)
  refine (cat4_apply 5000 _ _ _ _ _ p q).trans ?_
  simp only [shapeCast_self]
  rfl

end Cert.KernelIdeal.Blocks
-- ==== Proof.Regions.lean ====
/-
  Each pallas_call's output array, as one function of the arrays it is entered with.

  The encoder call walks 20 row blocks of 5000 rows; at block t it reads rows 5000 t .. 5000 t + 4999 of the node features
  and of the neighbour sums, and the four weight arrays whole, and writes the same rows of its output. Since the body
  stores, at row p of the block, the encoder row function of row p of what it loaded, the output array after the call is
  the encoder applied to every row of the combined features. The decoder call does the same over 40 blocks of 5000 pairs
  with a one-column output. Both facts are stated for ANY contents of the buffers at the call's entry: the program's host
  operations decide later what those contents are.
-/
import proofs.«141117_j17360257810534_1_alg».proof.Proof.Gen.KernelIdeal.Frame
import proofs.«141117_j17360257810534_1_alg».proof.Proof.Blocks
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen Cert.Rows Cert.KernelIdeal.Blocks
open Idealize.ShloMosaic.Pipeline (Dat Cfg Window)

variable (V : (c : Dev nD) → (b : Ref sig .tc) → Buf (Elt Ideal) ((c : Thread nD τ).loc b))

/-- The all-zero offset of a rank-2 access, as a constant function. -/
theorem origin2 : (![0, 0] : Fin 2 → Nat) = fun _ => 0 := funext fun a => by fin_cases a <;> rfl
/-- The all-zero offset of a rank-1 access, as a constant function. -/
theorem origin1 : (![0] : Fin 1 → Nat) = fun _ => 0 := funext fun a => by fin_cases a <;> rfl

/-! ## The encoder call -/

/-- The encoder call's output array in terms of its entry contents. -/
abbrev encOut (c : Dev nD) : S100000x64.Idx → Elt Ideal .f32 :=
  encArr 100000 (combK (V c main_arg0) (V c main_call0_v13)) (V c main_arg4) (V c main_arg5) (V c main_arg6) (V c main_arg7)

/-- The printed index maps over the 20 grid points: the three row-blocked windows sit at row block t, column block 0;
    the four weight windows at block 0 throughout. -/
theorem enc_block_index : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p, column q of block t of a row-blocked window is row 5000 t + p, column q of its array. -/
theorem enc_features_block (c : Dev nD) (t : Fin cfg0.N) (p : Fin 5000) (q : Fin 64) (h : t.val * 5000 + p.val < 100000) :
    iblk0 V c 0 t (ix2 p q) = V c main_arg0 (ix2 (⟨t.val * 5000 + p.val, h⟩ : Fin 100000) q) := by
  obtain ⟨e0, e1, -⟩ := enc_block_index t
  show V c main_arg0 (((cfg0.win 0).blk t).view.emb (ix2 p q)) = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * q.val = q.val; omega

theorem enc_sums_block (c : Dev nD) (t : Fin cfg0.N) (p : Fin 5000) (q : Fin 64) (h : t.val * 5000 + p.val < 100000) :
    iblk0 V c 1 t (ix2 p q) = V c main_call0_v13 (ix2 (⟨t.val * 5000 + p.val, h⟩ : Fin 100000) q) := by
  obtain ⟨-, -, e0, e1, -⟩ := enc_block_index t
  show V c main_call0_v13 (((cfg0.win 1).blk t).view.emb (ix2 p q)) = V c main_call0_v13 _
  refine congrArg (V c main_call0_v13) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * q.val = q.val; omega

/-- A weight window's block, at every point, is its whole array. -/
theorem enc_w1_block (c : Dev nD) (t : Fin cfg0.N) : iblk0 V c 2 t = V c main_arg4 := by
  obtain ⟨-, -, -, -, e0, e1, -⟩ := enc_block_index t
  funext y
  show V c main_arg4 (((cfg0.win 2).blk t).view.emb y) = V c main_arg4 y
  refine congrArg (V c main_arg4) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem enc_b1_block (c : Dev nD) (t : Fin cfg0.N) : iblk0 V c 3 t = V c main_arg5 := by
  obtain ⟨-, -, -, -, -, -, e0, -⟩ := enc_block_index t
  funext y
  show V c main_arg5 (((cfg0.win 3).blk t).view.emb y) = V c main_arg5 y
  refine congrArg (V c main_arg5) (funext fun a => Fin.ext ?_)
  match a with
  | ⟨0, _⟩ => show win0_3.index t (0 : Fin 1) * 64 + 1 * (y 0).val = (y 0).val; omega

theorem enc_w2_block (c : Dev nD) (t : Fin cfg0.N) : iblk0 V c 4 t = V c main_arg6 := by
  obtain ⟨-, -, -, -, -, -, -, e0, e1, -⟩ := enc_block_index t
  funext y
  show V c main_arg6 (((cfg0.win 4).blk t).view.emb y) = V c main_arg6 y
  refine congrArg (V c main_arg6) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem enc_b2_block (c : Dev nD) (t : Fin cfg0.N) : iblk0 V c 5 t = V c main_arg7 := by
  obtain ⟨-, -, -, -, -, -, -, -, -, e0, -⟩ := enc_block_index t
  funext y
  show V c main_arg7 (((cfg0.win 5).blk t).view.emb y) = V c main_arg7 y
  refine congrArg (V c main_arg7) (funext fun a => Fin.ext ?_)
  match a with
  | ⟨0, _⟩ => show win0_5.index t (0 : Fin 1) * 64 + 1 * (y 0).val = (y 0).val; omega

/-- What point t writes back is block t of the encoder applied to every row of the combined features. -/
theorem enc_flushed (c : Dev nD) (t : Fin cfg0.N) :
    (dat0 V c).flushed 6 t = ((cfg0.win 6).blk t).view.read (Elt Ideal) (encOut V c) := by
  show (cfg0.win 6).cut (grid0.coords t) ((dat0 V c).after 6 t) = _
  rw [after0_6]
  unfold out0_6
  rw [View.canon_unit_zero origin2]
  simp only [View.ld_unit_zero (S := S5000x64) origin2, View.ld_unit_zero (S := S64x64) origin2, View.ld_unit_zero (S := S64) origin1]
  rw [enc_w1_block, enc_b1_block, enc_w2_block, enc_b2_block]
  obtain ⟨-, -, -, -, -, -, -, -, -, -, e0, e1⟩ := enc_block_index t
  have ht : t.val < 20 := t.isLt
  funext y
  obtain ⟨p, j, rfl⟩ : ∃ (p : Fin 5000) (j : Fin 64), y = ix2 p j := ⟨y 0, y 1, eq_ix2 y⟩
  have hp : t.val * 5000 + p.val < 100000 := by have := p.isLt; omega
  have hemb : ((cfg0.win 6).blk t).view.emb (ix2 p j) = ix2 (⟨t.val * 5000 + p.val, hp⟩ : Fin 100000) j := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * j.val = j.val; omega
  show k0_pay1 (F := Ideal) (iblk0 V c 0 t) (iblk0 V c 1 t) (V c main_arg4) (V c main_arg5) (V c main_arg6) (V c main_arg7) (ix2 p j)
    = encOut V c (((cfg0.win 6).blk t).view.emb (ix2 p j))
  rw [hemb]
  refine (enc_pay _ _ _ _ _ _ p j).trans ?_
  refine ((encArr_apply 100000 _ _ _ _ _ _ j).trans ?_).symm
  refine congrArg (fun a => encRow a (V c main_arg4) (V c main_arg5) (V c main_arg6) (V c main_arg7) j) (funext fun q => ?_)
  show 2 * V c main_arg0 _ + V c main_call0_v13 _ = 2 * iblk0 V c 0 t (ix2 p q) + iblk0 V c 1 t (ix2 p q)
  rw [enc_features_block V c t p q hp, enc_sums_block V c t p q hp]

/-- An index of the output array is in point t's block iff each coordinate is in the block's range on its axis. -/
theorem mem_enc_block (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_call0_v14).slice (win0_6.rect t)).set ↔ _
  rw [View.set_slice_whole, Rect.mem_set_unit]
  exact Iff.rfl

/-- Every row of the output lies in the block of the point its row number divided by 5000 names. -/
theorem enc_cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, e0, e1⟩ := enc_block_index t
  have htv : t.val = (i 0).val / 5000 := rfl
  refine ⟨t, flush0_6 t, ?_⟩
  rw [mem_enc_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- After the encoder call its output array is the encoder applied to every row of the combined features. -/
theorem enc_final (c : Dev nD) : (dat0 V c).arrAt 6 cfg0.N = encOut V c :=
  (dat0 V c).arrAt_eq_of_cover 6 (encOut V c) (fun t _ => enc_flushed V c t) enc_cover

/-! ## The decoder call -/

/-- The decoder call's output array in terms of its entry contents. -/
abbrev decOut (c : Dev nD) : S200000x1.Idx → Elt Ideal .f32 :=
  decArr 200000 (V c main_call0_v23) (V c main_call0_v32) (V c main_arg8) (V c main_arg9) (V c main_arg10) (V c main_arg11)

/-- The printed index maps over the 40 grid points: the three row-blocked windows sit at row block t, column block 0;
    the four weight windows at block 0 throughout. -/
theorem dec_block_index : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem dec_first_block (c : Dev nD) (t : Fin cfg1.N) (p : Fin 5000) (q : Fin 64) (h : t.val * 5000 + p.val < 200000) :
    iblk1 V c 0 t (ix2 p q) = V c main_call0_v23 (ix2 (⟨t.val * 5000 + p.val, h⟩ : Fin 200000) q) := by
  obtain ⟨e0, e1, -⟩ := dec_block_index t
  show V c main_call0_v23 (((cfg1.win 0).blk t).view.emb (ix2 p q)) = V c main_call0_v23 _
  refine congrArg (V c main_call0_v23) (funext fun a => Fin.ext ?_)
  match a with
  | ⟨0, _⟩ => show win1_0.index t (0 : Fin 2) * 5000 + 1 * p.val = t.val * 5000 + p.val; omega
  | ⟨1, _⟩ => show win1_0.index t (1 : Fin 2) * 64 + 1 * q.val = q.val; omega

theorem dec_second_block (c : Dev nD) (t : Fin cfg1.N) (p : Fin 5000) (q : Fin 64) (h : t.val * 5000 + p.val < 200000) :
    iblk1 V c 1 t (ix2 p q) = V c main_call0_v32 (ix2 (⟨t.val * 5000 + p.val, h⟩ : Fin 200000) q) := by
  obtain ⟨-, -, e0, e1, -⟩ := dec_block_index t
  show V c main_call0_v32 (((cfg1.win 1).blk t).view.emb (ix2 p q)) = V c main_call0_v32 _
  refine congrArg (V c main_call0_v32) (funext fun a => Fin.ext ?_)
  match a with
  | ⟨0, _⟩ => show win1_1.index t (0 : Fin 2) * 5000 + 1 * p.val = t.val * 5000 + p.val; omega
  | ⟨1, _⟩ => show win1_1.index t (1 : Fin 2) * 64 + 1 * q.val = q.val; omega

theorem dec_w1_block (c : Dev nD) (t : Fin cfg1.N) : iblk1 V c 2 t = V c main_arg8 := by
  obtain ⟨-, -, -, -, e0, e1, -⟩ := dec_block_index t
  funext y
  show V c main_arg8 (((cfg1.win 2).blk t).view.emb y) = V c main_arg8 y
  refine congrArg (V c main_arg8) (funext fun a => Fin.ext ?_)
  match a with
  | ⟨0, _⟩ => show win1_2.index t (0 : Fin 2) * 256 + 1 * (y 0).val = (y 0).val; omega
  | ⟨1, _⟩ => show win1_2.index t (1 : Fin 2) * 64 + 1 * (y 1).val = (y 1).val; omega

theorem dec_b1_block (c : Dev nD) (t : Fin cfg1.N) : iblk1 V c 3 t = V c main_arg9 := by
  obtain ⟨-, -, -, -, -, -, e0, -⟩ := dec_block_index t
  funext y
  show V c main_arg9 (((cfg1.win 3).blk t).view.emb y) = V c main_arg9 y
  refine congrArg (V c main_arg9) (funext fun a => Fin.ext ?_)
  match a with
  | ⟨0, _⟩ => show win1_3.index t (0 : Fin 1) * 64 + 1 * (y 0).val = (y 0).val; omega

theorem dec_w2_block (c : Dev nD) (t : Fin cfg1.N) : iblk1 V c 4 t = V c main_arg10 := by
  obtain ⟨-, -, -, -, -, -, -, e0, e1, -⟩ := dec_block_index t
  funext y
  show V c main_arg10 (((cfg1.win 4).blk t).view.emb y) = V c main_arg10 y
  refine congrArg (V c main_arg10) (funext fun a => Fin.ext ?_)
  match a with
  | ⟨0, _⟩ => show win1_4.index t (0 : Fin 2) * 64 + 1 * (y 0).val = (y 0).val; omega
  | ⟨1, _⟩ => show win1_4.index t (1 : Fin 2) * 1 + 1 * (y 1).val = (y 1).val; omega

theorem dec_b2_block (c : Dev nD) (t : Fin cfg1.N) : iblk1 V c 5 t = V c main_arg11 := by
  obtain ⟨-, -, -, -, -, -, -, -, -, e0, -⟩ := dec_block_index t
  funext y
  show V c main_arg11 (((cfg1.win 5).blk t).view.emb y) = V c main_arg11 y
  refine congrArg (V c main_arg11) (funext fun a => Fin.ext ?_)
  match a with
  | ⟨0, _⟩ => show win1_5.index t (0 : Fin 1) * 1 + 1 * (y 0).val = (y 0).val; omega

/-- What point t writes back is block t of the decoder applied to every pair of rows of the two embedding arrays. -/
theorem dec_flushed (c : Dev nD) (t : Fin cfg1.N) :
    (dat1 V c).flushed 6 t = ((cfg1.win 6).blk t).view.read (Elt Ideal) (decOut V c) := by
  show (cfg1.win 6).cut (grid1.coords t) ((dat1 V c).after 6 t) = _
  rw [after1_6]
  unfold out1_6
  rw [View.canon_unit_zero origin2]
  simp only [View.ld_unit_zero (S := S5000x64) origin2, View.ld_unit_zero (S := S256x64) origin2, View.ld_unit_zero (S := S64) origin1,
    View.ld_unit_zero (S := S64x1) origin2, View.ld_unit_zero (S := S1) origin1]
  rw [dec_w1_block, dec_b1_block, dec_w2_block, dec_b2_block]
  obtain ⟨-, -, -, -, -, -, -, -, -, -, e0, e1⟩ := dec_block_index t
  have ht : t.val < 40 := t.isLt
  funext y
  obtain ⟨p, j, rfl⟩ : ∃ (p : Fin 5000) (j : Fin 1), y = ix2 p j := ⟨y 0, y 1, eq_ix2 y⟩
  have hp : t.val * 5000 + p.val < 200000 := by have := p.isLt; omega
  have hemb : ((cfg1.win 6).blk t).view.emb (ix2 p j) = ix2 (⟨t.val * 5000 + p.val, hp⟩ : Fin 200000) j := by
    funext a; apply Fin.ext
    match a with
    | ⟨0, _⟩ => show win1_6.index t (0 : Fin 2) * 5000 + 1 * p.val = t.val * 5000 + p.val; omega
    | ⟨1, _⟩ => show win1_6.index t (1 : Fin 2) * 1 + 1 * j.val = j.val; omega
  show k1_pay1 (F := Ideal) (iblk1 V c 0 t) (iblk1 V c 1 t) (V c main_arg8) (V c main_arg9) (V c main_arg10) (V c main_arg11) (ix2 p j)
    = decOut V c (((cfg1.win 6).blk t).view.emb (ix2 p j))
  rw [hemb]
  refine (dec_pay _ _ _ _ _ _ p j).trans ?_
  refine ((decArr_apply 200000 _ _ _ _ _ _ _ j).trans ?_).symm
  have r1 : (fun q => V c main_call0_v23 (ix2 (⟨t.val * 5000 + p.val, hp⟩ : Fin 200000) q)) = fun q => iblk1 V c 0 t (ix2 p q) :=
    funext fun q => (dec_first_block V c t p q hp).symm
  have r2 : (fun q => V c main_call0_v32 (ix2 (⟨t.val * 5000 + p.val, hp⟩ : Fin 200000) q)) = fun q => iblk1 V c 1 t (ix2 p q) :=
    funext fun q => (dec_second_block V c t p q hp).symm
  rw [r1, r2]

theorem mem_dec_block (t : Fin cfg1.N) (i : S200000x1.Idx) :
    i ∈ ((cfg1.win 6).blk t).view.set ↔ ∀ a : Fin 2, win1_6.index t a * S5000x1.size a ≤ (i a).val ∧ (i a).val < win1_6.index t a * S5000x1.size a + S5000x1.size a := by
  show i ∈ ((View.whole main_v0).slice (win1_6.rect t)).set ↔ _
  rw [View.set_slice_whole, Rect.mem_set_unit]
  exact Iff.rfl

/-- Every row of the output lies in the block of the point its row number divided by 5000 names. -/
theorem dec_cover (i : S200000x1.Idx) :
    ∃ t : Fin cfg1.N, (cfg1.win 6).flush t = true ∧ i ∈ ((cfg1.win 6).blk t).view.set := by
  have hi0 : (i 0).val < 200000 := (i 0).isLt
  have hi1 : (i 1).val < 1 := (i 1).isLt
  have hN : cfg1.N = 40 := N_1
  let t : Fin cfg1.N := ⟨(i 0).val / 5000, by rw [hN]; omega⟩
  obtain ⟨-, -, -, -, -, -, -, -, -, -, e0, e1⟩ := dec_block_index t
  have htv : t.val = (i 0).val / 5000 := rfl
  refine ⟨t, flush1_6 t, ?_⟩
  rw [mem_dec_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 1 ≤ (i 1).val ∧ (i 1).val < win1_6.index t (1 : Fin 2) * 1 + 1; omega

/-- After the decoder call its output array is the decoder applied to every pair of rows of the embedding arrays. -/
theorem dec_final (c : Dev nD) : (dat1 V c).arrAt 6 cfg1.N = decOut V c :=
  (dat1 V c).arrAt_eq_of_cover 6 (decOut V c) (fun t _ => dec_flushed V c t) dec_cover

end Cert.KernelIdeal.Regions
-- ==== Proof.RefRows.lean ====
/-
  The reference's dense stretches, as the row functions applied to every row.

  The reference computes the node embeddings with two host matrix products over all 100000 rows at once, and the pair
  scores with two more over all 200000 pairs. Read at an entry, each of these whole-array computations is the same row
  function the kernel bodies compute block by block: the embedding stage is the encoder applied to every row of the
  reference's combined features (the features once, plus the neighbour sum with the features added), and the result
  stage is the decoder applied to every pair of rows of the two gathered embedding arrays. The reference's literal 1.0
  is the real number one.
-/
import proofs.«141117_j17360257810534_1_alg».proof.Proof.Gen.ReferenceIdeal.Read
import proofs.«141117_j17360257810534_1_alg».proof.Proof.Rows

noncomputable section

open scoped BigOperators

namespace Cert.ReferenceIdeal.RefRows

open Idealize.ShloMosaic Idealize.ShloMosaic.ValueIdx Cert.ReferenceIdeal Cert.ReferenceIdeal.Gen Cert.ReferenceIdeal.Read Cert.Rows

/-- The literal 1.0 denotes the real number one. -/
theorem one : Ideal.ofBits .f32 0x3F800000#32 = 1 := by
  simp [Ideal.ofBits, Ideal.ieee, -EReal.coe_mul]; norm_num

/-- A scalar constant repeated over an array, read at an entry: the constant's word, not yet evaluated. -/
theorem splat_apply {s : Shape} (w : BitVec 32) (g : (⟨0, ![]⟩ : Shape).BroadcastsInDim s ![]) (i : s.Idx) :
    broadcastInDim s ![] g (constant (F := Ideal) ⟨0, ![]⟩ .f32 w) i = Ideal.ofBits .f32 w := by
  unfold broadcastInDim; rfl

/-- The reference's three contraction records are the plain products of their sizes. -/
theorem dotE_plain : dot_S100000x64_S64x64_S100000x64_1_0_0_1_n_n = DotDims.plain 100000 64 64 := rfl
theorem dotD1_plain : dot_S200000x256_S256x64_S200000x64_1_0_0_1_n_n = DotDims.plain 200000 256 64 := rfl
theorem dotD2_plain : dot_S200000x64_S64x1_S200000x1_1_0_0_1_n_n = DotDims.plain 200000 64 1 := rfl

/-- The reference's embedding stage is the encoder applied to every row of its combined features. -/
theorem enc_ref (x0 : (⟨S100000x64, .f32⟩ : BufTy).Contents (Elt Ideal)) (x1 : (⟨S2x1600000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v30 (F := Ideal) x0 x1 x4 x5 x6 x7 = encArr 100000 (combH x0 (val_main_v14 (F := Ideal) x0 x1)) x4 x5 x6 x7 := by
  funext i
  obtain ⟨p, j, rfl⟩ : ∃ (p : Fin 100000) (j : Fin 64), i = ix2 p j := ⟨i 0, i 1, eq_ix2 i⟩
  rw [encArr_apply]
  unfold val_main_v30 val_main_v29 val_main_cst_3 val_main_v28 val_main_v27 val_main_v26 val_main_v25 val_main_v24 val_main_v23
    val_main_cst_2 val_main_v22 val_main_v21 val_main_v20 val_main_v19 val_main_v18 val_main_v17 val_main_v16 val_main_cst_1 val_main_v15
  generalize val_main_v14 (F := Ideal) x0 x1 = sg
  rw [dotE_plain]
  refine (reluH_apply _ _ _).trans ?_
  unfold encRow
  refine congrArg relu ?_
  refine (linH_apply 100000 64 64 none _ x6 x7 ![1] rfl _ ![0, 1] rfl _ p j).trans ?_
  refine congrArg (fun a => lin a x6 x7 j) (funext fun k => ?_)
  refine (reluH_apply _ _ _).trans ?_
  refine congrArg relu ?_
  refine (linH_apply 100000 64 64 none _ x4 x5 ![1] rfl _ ![0, 1] rfl _ p k).trans ?_
  refine congrArg (fun a => lin a x4 x5 k) (funext fun q => ?_)
  rw [addf_apply, mulf_apply, addf_apply, splat_apply, one]
  rfl

/-- The reference's result stage is the decoder applied to every pair of rows of its two gathered embedding arrays. -/
theorem dec_ref (x0 : (⟨S100000x64, .f32⟩ : BufTy).Contents (Elt Ideal)) (x1 : (⟨S2x1600000, .i32⟩ : BufTy).Contents (Elt Ideal))
    (x3 : (⟨S2x200000, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S256x64, .f32⟩ : BufTy).Contents (Elt Ideal)) (x9 : (⟨S64, .f32⟩ : BufTy).Contents (Elt Ideal))
    (x10 : (⟨S64x1, .f32⟩ : BufTy).Contents (Elt Ideal)) (x11 : (⟨S1, .f32⟩ : BufTy).Contents (Elt Ideal)) :
    val_main_v61 (F := Ideal) x0 x1 x3 x4 x5 x6 x7 x8 x9 x10 x11
      = decArr 200000 (val_main_v39 (F := Ideal) x0 x1 x3 x4 x5 x6 x7) (val_main_v48 (F := Ideal) x0 x1 x3 x4 x5 x6 x7) x8 x9 x10 x11 := by
  funext i
  obtain ⟨p, j, rfl⟩ : ∃ (p : Fin 200000) (j : Fin 1), i = ix2 p j := ⟨i 0, i 1, eq_ix2 i⟩
  rw [decArr_apply]
  unfold val_main_v61 val_main_v60 val_main_v59 val_main_v58 val_main_v57 val_main_v56 val_main_cst_8 val_main_v55 val_main_v54
    val_main_v53 val_main_v52 val_main_v51 val_main_v50 val_main_v49
  generalize val_main_v39 (F := Ideal) x0 x1 x3 x4 x5 x6 x7 = e1
  generalize val_main_v48 (F := Ideal) x0 x1 x3 x4 x5 x6 x7 = e2
  rw [dotD1_plain, dotD2_plain]
  unfold decRow
  refine (linH_apply 200000 64 1 none _ x10 x11 ![1] rfl _ ![0, 1] rfl _ p j).trans ?_
  refine congrArg (fun a => lin a x10 x11 j) (funext fun k => ?_)
  refine (reluH_apply _ _ _).trans ?_
  refine congrArg relu ?_
  refine (linH_apply 200000 256 64 none _ x8 x9 ![1] rfl _ ![0, 1] rfl _ p k).trans ?_
  refine congrArg (fun a => lin a x8 x9 k) (funext fun q => ?_)
  exact cat4_apply 200000 _ _ _ _ _ p q

end Cert.ReferenceIdeal.RefRows
-- ==== Proof.KernelValue.lean ====
/-
  The kernel program's result, as the reference's own function of the arguments.

  The program runs four stretches in turn: host operations (the gather of the source rows and their sum per destination
  row), the encoder call, host operations again (the two gathers of embedding rows named by the query pairs), the decoder
  call. This module carries the contents of the buffers through the four, starting from the launch memory: the neighbour
  sum the encoder call is entered with is the reference's neighbour-sum stage of the same arguments (the same host
  operations, in the same order); the encoder call's output is then the reference's embedding stage, because both are the
  encoder applied to every row and the two spellings of the combined features agree; the two gathered arrays the decoder
  call is entered with are the reference's two gathered arrays; and the decoder call's output is the reference's result
  stage. The weight arrays and the index arrays are written by nothing, so every stretch finds them as launched.
-/
import proofs.«141117_j17360257810534_1_alg».proof.Proof.Regions
import proofs.«141117_j17360257810534_1_alg».proof.Proof.RefRows
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.Rows Cert.KernelIdeal.Regions

variable (m : (ℓ : Loc nD τ sig) → Buf (Elt Ideal) ℓ) (ρ : Dev nD → PrngReg)

/-! ## What no host operation writes -/

/-- A buffer none of the first stretch's operations writes is, at the encoder call's entry, as launched. -/
theorem keep0 (c : Dev nD) (b : Ref sig .tc)
    (h : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h).trans rfl

/-- A buffer none of the second stretch's operations writes is, at the decoder call's entry, as the encoder call left it. -/
theorem keep1 (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h

theorem W1_arg0 (c : Dev nD) : W1 m ρ c (Proc.devRef .tc main_arg0) = m ((c : Thread nD τ).loc main_arg0) :=
  keep0 m ρ c main_arg0 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg1 (c : Dev nD) : W1 m ρ c (Proc.devRef .tc main_arg1) = m ((c : Thread nD τ).loc main_arg1) :=
  keep0 m ρ c main_arg1 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg3 (c : Dev nD) : W1 m ρ c (Proc.devRef .tc main_arg3) = m ((c : Thread nD τ).loc main_arg3) :=
  keep0 m ρ c main_arg3 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg4 (c : Dev nD) : W1 m ρ c (Proc.devRef .tc main_arg4) = m ((c : Thread nD τ).loc main_arg4) :=
  keep0 m ρ c main_arg4 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg5 (c : Dev nD) : W1 m ρ c (Proc.devRef .tc main_arg5) = m ((c : Thread nD τ).loc main_arg5) :=
  keep0 m ρ c main_arg5 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg6 (c : Dev nD) : W1 m ρ c (Proc.devRef .tc main_arg6) = m ((c : Thread nD τ).loc main_arg6) :=
  keep0 m ρ c main_arg6 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg7 (c : Dev nD) : W1 m ρ c (Proc.devRef .tc main_arg7) = m ((c : Thread nD τ).loc main_arg7) :=
  keep0 m ρ c main_arg7 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg8 (c : Dev nD) : W1 m ρ c (Proc.devRef .tc main_arg8) = m ((c : Thread nD τ).loc main_arg8) :=
  keep0 m ρ c main_arg8 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg9 (c : Dev nD) : W1 m ρ c (Proc.devRef .tc main_arg9) = m ((c : Thread nD τ).loc main_arg9) :=
  keep0 m ρ c main_arg9 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg10 (c : Dev nD) : W1 m ρ c (Proc.devRef .tc main_arg10) = m ((c : Thread nD τ).loc main_arg10) :=
  keep0 m ρ c main_arg10 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_arg11 (c : Dev nD) : W1 m ρ c (Proc.devRef .tc main_arg11) = m ((c : Thread nD τ).loc main_arg11) :=
  keep0 m ρ c main_arg11 (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The index pairs are in none of the encoder call's windows: at its exit they are as launched. -/
theorem W2_arg3 (c : Dev nD) : W2 m ρ c (Proc.devRef .tc main_arg3) = m ((c : Thread nD τ).loc main_arg3) :=
  (W2_of_ne m ρ c main_arg3 (by decide)).trans (W1_arg3 m ρ c)

theorem W3_arg8 (c : Dev nD) : W3 m ρ c (Proc.devRef .tc main_arg8) = m ((c : Thread nD τ).loc main_arg8) :=
  (keep1 m ρ c main_arg8 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg8 (by decide)).trans (W1_arg8 m ρ c))

theorem W3_arg9 (c : Dev nD) : W3 m ρ c (Proc.devRef .tc main_arg9) = m ((c : Thread nD τ).loc main_arg9) :=
  (keep1 m ρ c main_arg9 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg9 (by decide)).trans (W1_arg9 m ρ c))

theorem W3_arg10 (c : Dev nD) : W3 m ρ c (Proc.devRef .tc main_arg10) = m ((c : Thread nD τ).loc main_arg10) :=
  (keep1 m ρ c main_arg10 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg10 (by decide)).trans (W1_arg10 m ρ c))

theorem W3_arg11 (c : Dev nD) : W3 m ρ c (Proc.devRef .tc main_arg11) = m ((c : Thread nD τ).loc main_arg11) :=
  (keep1 m ρ c main_arg11 (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans
    ((W2_of_ne m ρ c main_arg11 (by decide)).trans (W1_arg11 m ρ c))

/-! ## The encoder call's entry and exit -/

/-- The neighbour sum the encoder call is entered with is the reference's neighbour-sum stage of the launch features and
    edge list: the same host operations, in the same order. -/
theorem V1_seg (c : Dev nD) :
    V1 m ρ c main_call0_v13 = Cert.ReferenceIdeal.Read.val_main_v14 (F := Ideal) (m ((c : Thread nD τ).loc main_arg0)) (m ((c : Thread nD τ).loc main_arg1)) := by
  show StableHlo.after hostOps0 (W0 m ρ c) (Proc.devRef .tc main_call0_v13) = _
  after_results
  unfold Cert.ReferenceIdeal.Read.val_main_v14 Cert.ReferenceIdeal.Read.val_main_v13 Cert.ReferenceIdeal.Read.val_main_v12 Cert.ReferenceIdeal.Read.val_main_cst Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_c_0 Cert.ReferenceIdeal.Read.val_main_v6 Cert.ReferenceIdeal.Read.val_main_v5 Cert.ReferenceIdeal.Read.val_main_c Cert.ReferenceIdeal.Read.val_main_v4 Cert.ReferenceIdeal.Read.val_main_v3 Cert.ReferenceIdeal.Read.val_main_v2 Cert.ReferenceIdeal.Read.val_main_v1
  rfl

/-- The encoder call's output array is the reference's embedding stage of the launch arguments. -/
theorem W2_h (c : Dev nD) :
    W2 m ρ c (Proc.devRef .tc main_call0_v14)
      = Cert.ReferenceIdeal.Read.val_main_v30 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  refine (W2_arr m ρ c 6).trans ((enc_final (V1 m ρ) c).trans ?_)
  show encArr 100000 (combK (V1 m ρ c main_arg0) (V1 m ρ c main_call0_v13)) (V1 m ρ c main_arg4) (V1 m ρ c main_arg5) (V1 m ρ c main_arg6) (V1 m ρ c main_arg7) = _
  rw [V1_seg m ρ c, show V1 m ρ c main_arg0 = _ from W1_arg0 m ρ c, show V1 m ρ c main_arg4 = _ from W1_arg4 m ρ c,
    show V1 m ρ c main_arg5 = _ from W1_arg5 m ρ c, show V1 m ρ c main_arg6 = _ from W1_arg6 m ρ c,
    show V1 m ρ c main_arg7 = _ from W1_arg7 m ρ c, combK_eq_combH]
  exact (Cert.ReferenceIdeal.RefRows.enc_ref _ _ _ _ _ _).symm

/-! ## The decoder call's entry and exit -/

/-- The first gathered embedding array the decoder call is entered with is the reference's. -/
theorem V3_e1 (c : Dev nD) :
    V3 m ρ c main_call0_v23
      = Cert.ReferenceIdeal.Read.val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_call0_v23) = _
  after_results
  rw [W2_h m ρ c, W2_arg3 m ρ c]
  unfold Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_c_5 Cert.ReferenceIdeal.Read.val_main_v34 Cert.ReferenceIdeal.Read.val_main_v33 Cert.ReferenceIdeal.Read.val_main_c_4 Cert.ReferenceIdeal.Read.val_main_v32 Cert.ReferenceIdeal.Read.val_main_v31
  rfl

set_option maxHeartbeats 2000000 in
/-- The second gathered embedding array the decoder call is entered with is the reference's. -/
theorem V3_e2 (c : Dev nD) :
    V3 m ρ c main_call0_v32
      = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_call0_v32) = _
  after_results
  rw [W2_h m ρ c, W2_arg3 m ρ c]
  unfold Cert.ReferenceIdeal.Read.val_main_v48 Cert.ReferenceIdeal.Read.val_main_v47 Cert.ReferenceIdeal.Read.val_main_v46 Cert.ReferenceIdeal.Read.val_main_v45 Cert.ReferenceIdeal.Read.val_main_v44 Cert.ReferenceIdeal.Read.val_main_c_7 Cert.ReferenceIdeal.Read.val_main_v43 Cert.ReferenceIdeal.Read.val_main_v42 Cert.ReferenceIdeal.Read.val_main_c_6 Cert.ReferenceIdeal.Read.val_main_v41 Cert.ReferenceIdeal.Read.val_main_v40
  rfl

/-- THE KERNEL PROGRAM'S RESULT: after the decoder call the result buffer holds the reference's result stage of the
    launch arguments. -/
theorem result (c : Dev nD) :
    W4 m ρ c (Proc.devRef .tc main_v0)
      = Cert.ReferenceIdeal.Read.val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 6).trans ((dec_final (V3 m ρ) c).trans ?_)
  show decArr 200000 (V3 m ρ c main_call0_v23) (V3 m ρ c main_call0_v32) (V3 m ρ c main_arg8) (V3 m ρ c main_arg9) (V3 m ρ c main_arg10) (V3 m ρ c main_arg11) = _
  rw [V3_e1 m ρ c, V3_e2 m ρ c, show V3 m ρ c main_arg8 = _ from W3_arg8 m ρ c, show V3 m ρ c main_arg9 = _ from W3_arg9 m ρ c,
    show V3 m ρ c main_arg10 = _ from W3_arg10 m ρ c, show V3 m ρ c main_arg11 = _ from W3_arg11 m ρ c]
  exact (Cert.ReferenceIdeal.RefRows.dec_ref _ _ _ _ _ _ _ _ _ _ _).symm

end Cert.KernelIdeal.KValue
-- ==== Proof.lean ====
/-
  A two-layer graph encoder followed by a pairwise decoder, as two Pallas calls, against its jnp reference.

  Both programs gather the source rows of the node features along the edge list and sum them per destination row (host
  operations in both, the same ones). The kernel program then forms 2 * x + seg inside its encoder call, where the
  reference forms 1 * x + (seg + x) on the host; on the extended reals these are the same value at every entry, by
  commutativity and associativity of the sum and twice a value being the value added to itself, which hold at the
  infinities too, so the claim needs nothing of the precondition. From there on the two programs apply the same row
  functions: the encoder (two dense layers of width 64, each followed by max with zero) to every node row, and, after
  gathering the two embedding rows each query pair names, the decoder (the four pieces e1 + e2, e1 * e2, e1, e2 laid side
  by side, a dense layer 256 -> 64 with max with zero, a dense layer 64 -> 1) to every pair. The kernel does this in row
  blocks of 5000 with the matrix factors narrowed to bf16, which is the identity on ideal values, and its matrix products
  accumulate into zero; the reference does it on the whole arrays with the host's matrix product. Read at an entry every
  one of these is the same sum over the contraction coordinate.

  The three frames are the generated ones (the reference's is its generated run with the result dropped); the ideal pass
  rewrote nothing, so there is nothing to preserve; and the value claim puts the kernel program's run, its result named
  as the reference's result function of the arguments, beside the reference's generated run.
-/
import proofs.«141117_j17360257810534_1_alg».proof.Defs
import proofs.«141117_j17360257810534_1_alg».proof.Proof.Gen.Kernel
import proofs.«141117_j17360257810534_1_alg».proof.Proof.Gen.Kernel.Skeleton
import proofs.«141117_j17360257810534_1_alg».proof.Proof.Gen.Kernel.Launch
import proofs.«141117_j17360257810534_1_alg».proof.Proof.Gen.Kernel.Points
import proofs.«141117_j17360257810534_1_alg».proof.Proof.Gen.Kernel.Frame
import proofs.«141117_j17360257810534_1_alg».proof.Proof.Gen.KernelIdeal
import proofs.«141117_j17360257810534_1_alg».proof.Proof.Gen.KernelIdeal.Skeleton
import proofs.«141117_j17360257810534_1_alg».proof.Proof.Gen.KernelIdeal.Launch
import proofs.«141117_j17360257810534_1_alg».proof.Proof.Gen.KernelIdeal.Points
import proofs.«141117_j17360257810534_1_alg».proof.Proof.Gen.KernelIdeal.Frame
import proofs.«141117_j17360257810534_1_alg».proof.Proof.Gen.ReferenceIdeal
import proofs.«141117_j17360257810534_1_alg».proof.Proof.Gen.Pre_finite_inputs
import proofs.«141117_j17360257810534_1_alg».proof.Proof.Gen.ReferenceIdeal.Run
import proofs.«141117_j17360257810534_1_alg».proof.Proof.Gen.ReferenceIdeal.Read
import proofs.«141117_j17360257810534_1_alg».proof.Proof.RunValue
import proofs.«141117_j17360257810534_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the reference's result function of those
    arguments in their result buffers. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.KValue.result m ρ c), (h c).2⟩)
      (Cert.KernelIdeal.RunValue.run_value (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, -, h3, h4, h5, h6, h7, h8, h9, h10, h11⟩ := hagree c
  rw [Cert.ReferenceIdeal.Read.val_main_v61_eq, h0, h1, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
